-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2 : Shape := ⟨2, ![65536, 2]⟩
abbrev S2048x2 : Shape := ⟨2, ![2048, 2]⟩
abbrev S2048x3 : Shape := ⟨2, ![2048, 3]⟩
abbrev S2048x1 : Shape := ⟨2, ![2048, 1]⟩
abbrev S_ : Shape := ⟨0, ![]⟩

class Facts : Prop where
  bcast_S_S65536x2 : S_.BroadcastsInDim S65536x2 (![] : Fin 0 → Fin S65536x2.rank)
  reducesTo_S65536x2_S_d0_1 : S65536x2.ReducesTo [0, 1] S_
  h_S_ : 0 < S_.numel
  bcast_S_S2048x2 : S_.BroadcastsInDim S2048x2 (![] : Fin 0 → Fin S2048x2.rank)
  reducesTo_S2048x2_S_d0_1 : S2048x2.ReducesTo [0, 1] S_
  bcast_S_S2048x3 : S_.BroadcastsInDim S2048x3 (![] : Fin 0 → Fin S2048x3.rank)
  reducesTo_S2048x3_S_d0_1 : S2048x3.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_arg4 : FVec F S2048x1 .f32) (main_v13 : IVec S_ 1) (main_v16 : IVec S2048x3 1) : IVec S_ 1 :=
  let main_c_5 : IVec S_ 1 := constantI S_ 1 1#1
  let main_v17 : IVec S_ 1 := (fun x v => Host.reduce IntOp.andi x v reducesTo_S2048x3_S_d0_1 h_S_) main_v16 main_c_5
  let main_v18 : IVec S_ 1 := andi main_v13 main_v17
  let main_v19 : FVec F S2048x1 .f32 := Host.absf main_arg4
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  main_v23

def fn {F : FTy → Type} [FloatOps F] (main_arg0 : FVec F S65536x2 .f32) (main_arg1 : FVec F S2048x2 .f32) (main_arg2 : FVec F S2048x2 .f32) (main_arg3 : FVec F S2048x3 .f32) (main_arg4 : FVec F S2048x1 .f32) : IVec S_ 1 :=
  let main_v0 : FVec F S65536x2 .f32 := Host.absf main_arg0
  let main_cst : FVec F S_ .f32 := constant S_ .f32 0x7F800000#32
  let main_v1 : FVec F S65536x2 .f32 := broadcastInDim S65536x2 ![] bcast_S_S65536x2 main_cst
  let main_v2 : IVec S65536x2 1 := cmpf .olt main_v0 main_v1
  let main_c : IVec S_ 1 := constantI S_ 1 1#1
  let main_v3 : IVec S_ 1 := (fun x v => Host.reduce IntOp.andi x v reducesTo_S65536x2_S_d0_1 h_S_) main_v2 main_c
  let main_v4 : FVec F S2048x2 .f32 := Host.absf main_arg1
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  let main_v9 : FVec F S2048x2 .f32 := Host.absf main_arg2
  let main_cst_2 : FVec F S_ .f32 := constant S_ .f32 0x7F800000#32
  let main_v10 : FVec F S2048x2 .f32 := broadcastInDim S2048x2 ![] bcast_S_S2048x2 main_cst_2
  let main_v11 : IVec S2048x2 1 := cmpf .olt main_v9 main_v10
  let main_c_3 : IVec S_ 1 := constantI S_ 1 1#1
  let main_v12 : IVec S_ 1 := (fun x v => Host.reduce IntOp.andi x v reducesTo_S2048x2_S_d0_1 h_S_) main_v11 main_c_3
  let main_v13 : IVec S_ 1 := andi main_v8 main_v12
  let main_v14 : FVec F S2048x3 .f32 := Host.absf main_arg3
  let main_cst_4 : FVec F S_ .f32 := constant S_ .f32 0x7F800000#32
  let main_v15 : FVec F S2048x3 .f32 := broadcastInDim S2048x3 ![] bcast_S_S2048x3 main_cst_4
  let main_v16 : IVec S2048x3 1 := cmpf .olt main_v14 main_v15
  fn_part1 (F := F) main_arg4 main_v13 main_v16
-- ==== Kernel.lean ====
abbrev S65536x2 : Shape := ⟨2, ![65536, 2]⟩
abbrev S2048x2 : Shape := ⟨2, ![2048, 2]⟩
abbrev S2048x3 : Shape := ⟨2, ![2048, 3]⟩
abbrev S2048x1 : Shape := ⟨2, ![2048, 1]⟩
abbrev S2x2048 : Shape := ⟨2, ![2, 2048]⟩
abbrev S1x2048 : Shape := ⟨2, ![1, 2048]⟩
abbrev S65536x3 : Shape := ⟨2, ![65536, 3]⟩
abbrev S512x2 : Shape := ⟨2, ![512, 2]⟩
abbrev S512x3 : Shape := ⟨2, ![512, 3]⟩
abbrev S512x1 : Shape := ⟨2, ![512, 1]⟩
abbrev S512x2048 : Shape := ⟨2, ![512, 2048]⟩
abbrev S512 : Shape := ⟨1, ![512]⟩

abbrev nBuf : Space → Nat
  | .hbm => 9
  | .vmem => 8
  | .smem => 0
  | _ => 0

abbrev bufTy : (tb : Table) → Fin (tcTables nBuf tb) → BufTy
  | .hbm, ⟨0, _⟩ => ⟨S65536x2, .f32⟩
  | .hbm, ⟨1, _⟩ => ⟨S2048x2, .f32⟩
  | .hbm, ⟨2, _⟩ => ⟨S2048x2, .f32⟩
  | .hbm, ⟨3, _⟩ => ⟨S2048x3, .f32⟩
  | .hbm, ⟨4, _⟩ => ⟨S2048x1, .f32⟩
  | .hbm, ⟨5, _⟩ => ⟨S2x2048, .f32⟩
  | .hbm, ⟨6, _⟩ => ⟨S2x2048, .f32⟩
  | .hbm, ⟨7, _⟩ => ⟨S1x2048, .f32⟩
  | .hbm, ⟨8, _⟩ => ⟨S65536x3, .f32⟩
  | .local _ .vmem, ⟨0, _⟩ => ⟨S512x2, .f32⟩
  | .local _ .vmem, ⟨1, _⟩ => ⟨S512x2, .f32⟩
  | .local _ .vmem, ⟨2, _⟩ => ⟨S2x2048, .f32⟩
  | .local _ .vmem, ⟨3, _⟩ => ⟨S2x2048, .f32⟩
  | .local _ .vmem, ⟨4, _⟩ => ⟨S2048x3, .f32⟩
  | .local _ .vmem, ⟨5, _⟩ => ⟨S1x2048, .f32⟩
  | .local _ .vmem, ⟨6, _⟩ => ⟨S512x3, .f32⟩
  | .local _ .vmem, ⟨7, _⟩ => ⟨S512x3, .f32⟩
  | _, _ => ⟨S65536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S2048x2_S2x2048_1_0 : S2048x2.Transposes [1, 0] S2x2048
  transposes_S2048x1_S1x2048_1_0 : S2048x1.Transposes [1, 0] S1x2048
  inb_S512x2_S512x1_0_0 : ∀ a, (![0, 0] : Fin 2 → Nat) a + S512x1.size a ≤ S512x2.size a
  h_S512x1 : 0 < S512x1.numel
  inb_S512x2_S512x1_0_1 : ∀ a, (![0, 1] : Fin 2 → Nat) a + S512x1.size a ≤ S512x2.size a
  inb_S2x2048_S1x2048_0_0 : ∀ a, (![0, 0] : Fin 2 → Nat) a + S1x2048.size a ≤ S2x2048.size a
  h_S1x2048 : 0 < S1x2048.numel
  shapeCasts_S1x2048_S1x2048 : S1x2048.ShapeCasts S1x2048
  inb_S2x2048_S1x2048_1_0 : ∀ a, (![1, 0] : Fin 2 → Nat) a + S1x2048.size a ≤ S2x2048.size a
  broadcasts_S512x1_S512x2048 : S512x1.Broadcasts S512x2048
  broadcasts_S1x2048_S512x2048 : S1x2048.Broadcasts S512x2048
  inb_S1x2048_S1x2048_0_0 : ∀ a, (![0, 0] : Fin 2 → Nat) a + S1x2048.size a ≤ S1x2048.size a
  reduces_S512x2048_S512 : S512x2048.Reduces [1] S512
  shapeCasts_S512_S512x1 : S512.ShapeCasts S512x1
  bitsLt_bf16_f32 : FTy.bits .bf16 < FTy.bits .f32
  inb_S2048x3_S2048x3_0_0 : ∀ a, (![0, 0] : Fin 2 → Nat) a + S2048x3.size a ≤ S2048x3.size a
  h_S2048x3 : 0 < S2048x3.numel
  broadcasts_S512x1_S512x3 : S512x1.Broadcasts S512x3
  inb_S512x3_S512x3_0_0 : ∀ a, (![0, 0] : Fin 2 → Nat) a + S512x3.size a ≤ S512x3.size a
  h_S512x3 : 0 < S512x3.numel
  dot_S512x2048_S2048x3_S512x3_1_0_0_1_n_n_wf : DotDims.WF S512x2048 S2048x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S65536x2.size a
  hwx0_0 : ∀ i : grid0.Coords, EltTy.bits .f32 = 32 ∨ (Rect.block (s := S65536x2) S512x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2048.size a ≤ S2x2048.size a
  hwx0_1 : ∀ i : grid0.Coords, EltTy.bits .f32 = 32 ∨ (Rect.block (s := S2x2048) S2x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x2048.size a ≤ S2x2048.size a
  hwx0_2 : ∀ i : grid0.Coords, EltTy.bits .f32 = 32 ∨ (Rect.block (s := S2x2048) S2x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x3.size a ≤ S2048x3.size a
  hwx0_3 : ∀ i : grid0.Coords, EltTy.bits .f32 = 32 ∨ (Rect.block (s := S2048x3) S2048x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x3.size a ≤ S65536x3.size a
  hwx0_5 : ∀ i : grid0.Coords, EltTy.bits .f32 = 32 ∨ (Rect.block (s := S65536x3) S512x3.size (cc0_transform_5 i) (hinb0_5 i)).WholeWords (EltTy.packing .f32)

variable [Facts₀]

def dot_S512x2048_S2048x3_S512x3_1_0_0_1_n_n : DotDims S512x2048 S2048x3 S512x3 where
  lhsContracting := [1]
  rhsContracting := [0]
  lhsNonContracting := [0]
  rhsNonContracting := [1]
  lhsBatch := []
  rhsBatch := []
  wf := dot_S512x2048_S2048x3_S512x3_1_0_0_1_n_n_wf

abbrev win0_0 : Pipeline.Window sig grid0 :=
  Pipeline.Window.ofSpec (Memref.whole main_arg0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x2 : Shape := ⟨2, ![65536, 2]⟩
abbrev S2048x2 : Shape := ⟨2, ![2048, 2]⟩
abbrev S2048x3 : Shape := ⟨2, ![2048, 3]⟩
abbrev S2048x1 : Shape := ⟨2, ![2048, 1]⟩
abbrev S_ : Shape := ⟨0, ![]⟩
abbrev S2048 : Shape := ⟨1, ![2048]⟩
abbrev S65536x1x2 : Shape := ⟨3, ![65536, 1, 2]⟩
abbrev S1x2048x2 : Shape := ⟨3, ![1, 2048, 2]⟩
abbrev S65536x2048x2 : Shape := ⟨3, ![65536, 2048, 2]⟩
abbrev S65536x2048 : Shape := ⟨2, ![65536, 2048]⟩
abbrev S1x2048 : Shape := ⟨2, ![1, 2048]⟩
abbrev S65536x3 : Shape := ⟨2, ![65536, 3]⟩
abbrev S65536 : Shape := ⟨1, ![65536]⟩
abbrev S65536x1 : Shape := ⟨2, ![65536, 1]⟩

abbrev nBuf : Space → Nat
  | .hbm => 60
  | .vmem => 0
  | .smem => 0
  | _ => 0

abbrev bufTy : (tb : Table) → Fin (tcTables nBuf tb) → BufTy
  | .hbm, ⟨0, _⟩ => ⟨S65536x2, .f32⟩
  | .hbm, ⟨1, _⟩ => ⟨S2048x2, .f32⟩
  | .hbm, ⟨2, _⟩ => ⟨S2048x2, .f32⟩
  | .hbm, ⟨3, _⟩ => ⟨S2048x3, .f32⟩
  | .hbm, ⟨4, _⟩ => ⟨S2048x1, .f32⟩
  | .hbm, ⟨5, _⟩ => ⟨S2048x2, .f32⟩
  | .hbm, ⟨6, _⟩ => ⟨S_, .f32⟩
  | .hbm, ⟨7, _⟩ => ⟨S2048x2, .f32⟩
  | .hbm, ⟨8, _⟩ => ⟨S2048x2, .f32⟩
  | .hbm, ⟨9, _⟩ => ⟨S2048x1, .f32⟩
  | .hbm, ⟨10, _⟩ => ⟨S2048, .f32⟩
  | .hbm, ⟨11, _⟩ => ⟨S65536x1x2, .f32⟩
  | .hbm, ⟨12, _⟩ => ⟨S1x2048x2, .f32⟩
  | .hbm, ⟨13, _⟩ => ⟨S65536x2048x2, .f32⟩
  | .hbm, ⟨14, _⟩ => ⟨S65536x2048x2, .f32⟩
  | .hbm, ⟨15, _⟩ => ⟨S65536x2048x2, .f32⟩
  | .hbm, ⟨16, _⟩ => ⟨S1x2048x2, .f32⟩
  | .hbm, ⟨17, _⟩ => ⟨S65536x2048x2, .f32⟩
  | .hbm, ⟨18, _⟩ => ⟨S65536x2048x2, .f32⟩
  | .hbm, ⟨19, _⟩ => ⟨S65536x2048x2, .f32⟩
  | .hbm, ⟨20, _⟩ => ⟨S_, .f32⟩
  | .hbm, ⟨21, _⟩ => ⟨S65536x2048, .f32⟩
  | .hbm, ⟨22, _⟩ => ⟨S_, .f32⟩
  | .hbm, ⟨23, _⟩ => ⟨S65536x2048, .f32⟩
  | .hbm, ⟨24, _⟩ => ⟨S65536x2048, .f32⟩
  | .hbm, ⟨25, _⟩ => ⟨S2048x1, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S2048x1, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S1x2048, .f32⟩
  | .hbm, ⟨37, _⟩ => ⟨S65536x2048, .f32⟩
  | .hbm, ⟨38, _⟩ => ⟨S65536x2048, .f32⟩
  | .hbm, ⟨39, _⟩ => ⟨S65536x2048, .f32⟩
  | .hbm, ⟨40, _⟩ => ⟨S1x2048, .f32⟩
  | .hbm, ⟨41, _⟩ => ⟨S65536x2048, .f32⟩
  | .hbm, ⟨42, _⟩ => ⟨S65536x2048, .f32⟩
  | .hbm, ⟨43, _⟩ => ⟨S65536x3, .f32⟩
  | .hbm, ⟨44, _⟩ => ⟨S_, .f32⟩
  | .hbm, ⟨45, _⟩ => ⟨S65536, .f32⟩
  | .hbm, ⟨46, _⟩ => ⟨S65536x1, .f32⟩
  | .hbm, ⟨47, _⟩ => ⟨S_, .f32⟩
  | .hbm, ⟨48, _⟩ => ⟨S65536x1, .f32⟩
  | .hbm, ⟨49, _⟩ => ⟨S65536x1, .f32⟩
  | .hbm, ⟨50, _⟩ => ⟨S65536x3, .f32⟩
  | .hbm, ⟨51, _⟩ => ⟨S65536x3, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S65536x3, .f32⟩
  | .hbm, ⟨56, _⟩ => ⟨S65536x3, .f32⟩
  | .hbm, ⟨57, _⟩ => ⟨S_, .f32⟩
  | .hbm, ⟨58, _⟩ => ⟨S65536x3, .f32⟩
  | .hbm, ⟨59, _⟩ => ⟨S65536x3, .f32⟩
  | _, _ => ⟨S65536x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  bcast_S_S2048x2 : S_.BroadcastsInDim S2048x2 (![] : Fin 0 → Fin S2048x2.rank)
  shapeCasts_S2048x1_S2048 : S2048x1.ShapeCasts S2048
  bcast_S65536x2_S65536x1x2_0_2 : S65536x2.BroadcastsInDim S65536x1x2 (![0, 2] : Fin 2 → Fin S65536x1x2.rank)
  bcast_S2048x2_S1x2048x2_1_2 : S2048x2.BroadcastsInDim S1x2048x2 (![1, 2] : Fin 2 → Fin S1x2048x2.rank)
  bcast_S65536x1x2_S65536x2048x2_0_1_2 : S65536x1x2.BroadcastsInDim S65536x2048x2 (![0, 1, 2] : Fin 3 → Fin S65536x2048x2.rank)
  bcast_S1x2048x2_S65536x2048x2_0_1_2 : S1x2048x2.BroadcastsInDim S65536x2048x2 (![0, 1, 2] : Fin 3 → Fin S65536x2048x2.rank)
  reducesTo_S65536x2048x2_S65536x2048_d2 : S65536x2048x2.ReducesTo [2] S65536x2048
  h_S_ : 0 < S_.numel
  bcast_S_S65536x2048 : S_.BroadcastsInDim S65536x2048 (![] : Fin 0 → Fin S65536x2048.rank)
  slices_S2048x2_S2048x1_0_0 : S2048x2.Slices ![0, 0] S2048x1
  bcast_S_S2048 : S_.BroadcastsInDim S2048 (![] : Fin 0 → Fin S2048.rank)
  slices_S2048x2_S2048x1_0_1 : S2048x2.Slices ![0, 1] S2048x1
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  reducesTo_S65536x2048_S65536_d1 : S65536x2048.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x3_0_1 : S65536x1.BroadcastsInDim S65536x3 (![0, 1] : Fin 2 → Fin S65536x3.rank)
  bcast_S_S65536x3 : S_.BroadcastsInDim S65536x3 (![] : Fin 0 → Fin S65536x3.rank)
  dot_S65536x2048_S2048x3_S65536x3_1_0_0_1_n_n_wf : DotDims.WF S65536x2048 S2048x3 S65536x3 [1] [0] [0] [1] [] []

variable [Facts₀]

def dot_S65536x2048_S2048x3_S65536x3_1_0_0_1_n_n : DotDims S65536x2048 S2048x3 S65536x3 where
  lhsContracting := [1]
  rhsContracting := [0]
  lhsNonContracting := [0]
  rhsNonContracting := [1]
  lhsBatch := []
  rhsBatch := []
  wf := dot_S65536x2048_S2048x3_S65536x3_1_0_0_1_n_n_wf

class Facts : Prop extends Facts₀ where

variable [Facts]
-- ==== Proof.SplatSpec.lean ====
/-
  Gaussian splatting, pixel by pixel, on the extended reals.

  Each of the 2048 gaussians has a centre (px, py), two log-scales, a log-opacity and a colour (three channels).
  Its scale on an axis is exp(log-scale), clamped below by the literal 0.1. At a pixel (cx, cy) its weight is
      1 / (2π · sx · sy) · exp(-1/2 · (((cx - px) / sx)² + ((cy - py) / sy)²)) · exp(log-opacity),
  and channel ch of the pixel is the weighted colour sum divided by the total weight (the total clamped below by 1e-8),
  the quotient clamped to [0, 1]. The float literals stay as their binary words: both programs spell the same words,
  so none of them is ever evaluated here.
-/
import Idealize.ShloMosaic.PureOps.Ideal
import Idealize.ShloMosaic.Lib.ValueIdx

noncomputable section

namespace Cert.Splat

open Idealize.ShloMosaic Idealize.ShloMosaic.ValueIdx

/-- A gaussian's scale on one axis from its log-scale `l`: `max (exp l) 0.1`. -/
def scaleOf (l : EReal) : EReal := max (Ideal.exp l) (Ideal.ofBits .f32 0x3DCCCCCD#32)

/-- The squared offset of a pixel coordinate `c` from a centre coordinate `p`, in units of the scale. -/
def offSq (c p l : EReal) : EReal := Ideal.div (c - p) (scaleOf l) * Ideal.div (c - p) (scaleOf l)

/-- The weight of one gaussian (centre `px py`, log-scales `lx ly`, log-opacity `o`) at the pixel `(cx, cy)`. -/
def weightOf (cx cy px py lx ly o : EReal) : EReal :=
  Ideal.div (Ideal.ofBits .f32 0x3F800000#32) (Ideal.ofBits .f32 0x40C90FDB#32 * scaleOf lx * scaleOf ly)
    * Ideal.exp (Ideal.ofBits .f32 0xBF000000#32 * (offSq cx px lx + offSq cy py ly))
    * Ideal.exp o

/-- One channel of one pixel from the gaussians' weights there (`w`) and their values of that channel (`col`):
    the weighted sum over the total weight, the total clamped below by 1e-8, the quotient clamped to [0, 1]. -/
def shade (w col : Fin 2048 → EReal) : EReal :=
  min (Ideal.ofBits .f32 0x3F800000#32) (max (Ideal.ofBits .f32 0x00000000#32)
    (Ideal.div (∑ n : Fin 2048, w n * col n) (max (∑ n : Fin 2048, w n) (Ideal.ofBits .f32 0x322BCC77#32))))

/-- The image: pixel `i 0`, channel `i 1`, from the pixel coordinates `co` (x then y), the centres `po`, the log-scales
    `ls`, the colours `cl` and the log-opacities `lo`. -/
def image (co : (⟨2, ![65536, 2]⟩ : Shape).Idx → EReal) (po ls : (⟨2, ![2048, 2]⟩ : Shape).Idx → EReal)
    (cl : (⟨2, ![2048, 3]⟩ : Shape).Idx → EReal) (lo : (⟨2, ![2048, 1]⟩ : Shape).Idx → EReal) :
    (⟨2, ![65536, 3]⟩ : Shape).Idx → EReal := fun i =>
  shade (fun n => weightOf (co (ix2 (i 0) 0)) (co (ix2 (i 0) 1)) (po (ix2 n 0)) (po (ix2 n 1)) (ls (ix2 n 0)) (ls (ix2 n 1)) (lo (ix2 n 0)))
    (fun n => cl (ix2 n (i 1)))

end Cert.Splat

end
-- ==== Proof.RefIsSpec.lean ====
/-
  The reference program's result, read one stage at a time, is the specification's image.

  The reference broadcasts pixels against gaussians to a [65536, 2048, 2] array, divides by the clamped scales, squares, and
  sums the last axis (two terms, from a zero initial value); the weights are then a [65536, 2048] array, contracted with the
  colours and summed along the gaussians (again from zero). Read at an index, each stage is the matching scalar formula.
-/
import proofs.«125201_j1537598292676_1_alg».proof.Proof.Gen.ReferenceIdeal.Read
import proofs.«125201_j1537598292676_1_alg».proof.Proof.SplatSpec

noncomputable section

namespace Cert.ReferenceIdeal.RefValue

open Cert.ReferenceIdeal Cert.ReferenceIdeal.Read Cert.Splat Idealize.ShloMosaic Idealize.ShloMosaic.ValueIdx

variable (co : FVec Ideal S65536x2 .f32) (po ls : FVec Ideal S2048x2 .f32) (cl : FVec Ideal S2048x3 .f32) (lo : FVec Ideal S2048x1 .f32)

/-- A sum started from the zero word is the sum. -/
theorem zero_word_add (x : EReal) : Ideal.ofBits .f32 0x00000000#32 + x = x := by
  rw [Ideal.ofBits_zero_f32, zero_add]

/-- The clamped scale of gaussian `n` on axis `a`. -/
theorem scale_read (n : Fin 2048) (a : Fin 2) : val_main_v2 (F := Ideal) ls (ix2 n a) = scaleOf (ls (ix2 n a)) := by
  rw [val_main_v2_apply, val_main_v0_apply, val_main_v1_apply, val_main_cst_apply]
  rfl

/-- The squared scaled offset of pixel `p` from gaussian `n` on axis `a`. -/
theorem offset_read (p : Fin 65536) (n : Fin 2048) (a : Fin 2) :
    val_main_v13 (F := Ideal) co po ls (ix3 p n a) = offSq (co (ix2 p a)) (po (ix2 n a)) (ls (ix2 n a)) := by
  have e1 : idx_main_v5 (idx_main_v7 (ix3 p n a)) = ix2 p a :=
    funext fun b => Fin.ext (by match b with | ⟨0, _⟩ => rfl | ⟨1, _⟩ => rfl)
  have e2 : idx_main_v6 (idx_main_v8 (ix3 p n a)) = ix2 n a :=
    funext fun b => Fin.ext (by match b with | ⟨0, _⟩ => rfl | ⟨1, _⟩ => rfl)
  have e3 : idx_main_v10 (idx_main_v11 (ix3 p n a)) = ix2 n a :=
    funext fun b => Fin.ext (by match b with | ⟨0, _⟩ => rfl | ⟨1, _⟩ => rfl)
  rw [val_main_v13_apply, val_main_v12_apply, val_main_v9_apply, val_main_v7_apply, val_main_v5_apply, val_main_v8_apply,
    val_main_v6_apply, val_main_v11_apply, val_main_v10_apply, e1, e2, e3, scale_read]
  rfl

/-- The exponent: minus one half of the two squared offsets' sum. -/
theorem exponent_read (p : Fin 65536) (n : Fin 2048) :
    val_main_v16 (F := Ideal) co po ls (ix2 p n)
      = Ideal.ofBits .f32 0xBF000000#32 * (offSq (co (ix2 p 0)) (po (ix2 n 0)) (ls (ix2 n 0)) + offSq (co (ix2 p 1)) (po (ix2 n 1)) (ls (ix2 n 1))) := by
  have e0 : idx_main_v14 (ix2 p n) 0 = ix3 p n 0 :=
    funext fun b => Fin.ext (by match b with | ⟨0, _⟩ => rfl | ⟨1, _⟩ => rfl | ⟨2, _⟩ => rfl)
  have e1 : idx_main_v14 (ix2 p n) 1 = ix3 p n 1 :=
    funext fun b => Fin.ext (by match b with | ⟨0, _⟩ => rfl | ⟨1, _⟩ => rfl | ⟨2, _⟩ => rfl)
  rw [val_main_v16_apply, val_main_v15_apply, val_main_cst_1_apply, val_main_v14_apply, Fin.sum_univ_two, val_main_cst_0_apply,
    e0, e1, offset_read, offset_read]
  show Ideal.ofBits .f32 0xBF000000#32 * (Ideal.ofBits .f32 0x00000000#32 + _) = _
  rw [zero_word_add]

/-- The normalisation 1 / (2π · sx · sy) of gaussian `n`. -/
theorem norm_read (n : Fin 2048) :
    val_main_v25 (F := Ideal) ls (ix1 n)
      = Ideal.div (Ideal.ofBits .f32 0x3F800000#32) (Ideal.ofBits .f32 0x40C90FDB#32 * scaleOf (ls (ix2 n 0)) * scaleOf (ls (ix2 n 1))) := by
  have e0 : idx_main_v17 (idx_main_v18 (ix1 n)) = ix2 n 0 :=
    funext fun b => Fin.ext (by match b with | ⟨0, _⟩ => exact Nat.div_one _ | ⟨1, _⟩ => rfl)
  have e1 : idx_main_v21 (idx_main_v22 (ix1 n)) = ix2 n 1 :=
    funext fun b => Fin.ext (by match b with | ⟨0, _⟩ => exact Nat.div_one _ | ⟨1, _⟩ => rfl)
  rw [val_main_v25_apply, val_main_v24_apply, val_main_cst_3_apply, val_main_v23_apply, val_main_v20_apply, val_main_v19_apply,
    val_main_cst_2_apply, val_main_v18_apply, val_main_v17_apply, val_main_v22_apply, val_main_v21_apply, e0, e1, scale_read, scale_read]
  rfl

/-- The opacity exp(log-opacity) of gaussian `n`. -/
theorem opacity_read (n : Fin 2048) : val_main_v4 (F := Ideal) lo (ix1 n) = Ideal.exp (lo (ix2 n 0)) := by
  have e0 : idx_main_v4 (ix1 n) = ix2 n 0 :=
    funext fun b => Fin.ext (by match b with | ⟨0, _⟩ => exact Nat.div_one _ | ⟨1, _⟩ => rfl)
  rw [val_main_v4_apply, val_main_v3_apply, e0]
  rfl

/-- The weight of gaussian `n` at pixel `p`. -/
theorem weight_read (p : Fin 65536) (n : Fin 2048) :
    val_main_v32 (F := Ideal) co po ls lo (ix2 p n)
      = weightOf (co (ix2 p 0)) (co (ix2 p 1)) (po (ix2 n 0)) (po (ix2 n 1)) (ls (ix2 n 0)) (ls (ix2 n 1)) (lo (ix2 n 0)) := by
  have e0 : idx_main_v26 (idx_main_v28 (ix2 p n)) = ix1 n :=
    funext fun b => Fin.ext (by match b with | ⟨0, _⟩ => rfl)
  have e1 : idx_main_v30 (idx_main_v31 (ix2 p n)) = ix1 n :=
    funext fun b => Fin.ext (by match b with | ⟨0, _⟩ => rfl)
  rw [val_main_v32_apply, val_main_v29_apply, val_main_v28_apply, val_main_v26_apply, val_main_v27_apply, val_main_v31_apply,
    val_main_v30_apply, e0, e1, norm_read, exponent_read, opacity_read]
  rfl

/-- The reference's result is the image. -/
theorem result_read : val_main_v40 (F := Ideal) co po ls cl lo = image co po ls cl lo := by
  funext i
  have el : ∀ k : Fin 2048, lidx_main_v33 i k = ix2 (i 0) k := fun k =>
    funext fun b => Fin.ext (by match b with | ⟨0, _⟩ => rfl | ⟨1, _⟩ => rfl)
  have er : ∀ k : Fin 2048, ridx_main_v33 i k = ix2 k (i 1) := fun k =>
    funext fun b => Fin.ext (by match b with | ⟨0, _⟩ => rfl | ⟨1, _⟩ => rfl)
  have es : ∀ k : Fin 2048, idx_main_v34 (idx_main_v35 (idx_main_v38 i)) k = ix2 (i 0) k := fun k =>
    funext fun b => Fin.ext (by match b with | ⟨0, _⟩ => rfl | ⟨1, _⟩ => rfl)
  rw [val_main_v40_apply, val_main_call0_v4_apply, val_main_call0_v3_apply, val_main_cst_7_apply, val_main_call0_v2_apply,
    val_main_call0_v1_apply, val_main_call0_v0_apply, val_main_cst_6_apply, val_main_v39_apply, val_main_v38_apply,
    val_main_v37_apply, val_main_v36_apply, val_main_cst_5_apply, val_main_v35_apply, val_main_v34_apply, val_main_v33_apply,
    val_main_cst_4_apply]
  have hnum : (∑ k : Fin 2048, val_main_v32 (F := Ideal) co po ls lo (lidx_main_v33 i k) * cl (ridx_main_v33 i k))
      = ∑ n : Fin 2048, weightOf (co (ix2 (i 0) 0)) (co (ix2 (i 0) 1)) (po (ix2 n 0)) (po (ix2 n 1)) (ls (ix2 n 0)) (ls (ix2 n 1)) (lo (ix2 n 0)) * cl (ix2 n (i 1)) :=
    Finset.sum_congr rfl fun k _ => by rw [el k, er k]; exact congrArg (· * cl (ix2 k (i 1))) (weight_read co po ls lo (i 0) k)
  have hden : (∑ k : Fin 2048, val_main_v32 (F := Ideal) co po ls lo (idx_main_v34 (idx_main_v35 (idx_main_v38 i)) k))
      = ∑ n : Fin 2048, weightOf (co (ix2 (i 0) 0)) (co (ix2 (i 0) 1)) (po (ix2 n 0)) (po (ix2 n 1)) (ls (ix2 n 0)) (ls (ix2 n 1)) (lo (ix2 n 0)) :=
    Finset.sum_congr rfl fun k _ => by rw [es k]; exact weight_read co po ls lo (i 0) k
  rw [hnum, hden]
  show min (Ideal.ofBits .f32 0x3F800000#32) (max (Ideal.ofBits .f32 0x00000000#32) (Ideal.div _ (max (Ideal.ofBits .f32 0x00000000#32 + _) (Ideal.ofBits .f32 0x322BCC77#32)))) = _
  rw [zero_word_add]
  rfl

end Cert.ReferenceIdeal.RefValue

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.BodyValue.lean ====
/-
  What the kernel body stores, read at one entry of its output block.

  At a grid point the body holds a block of 512 pixels (columns x and y), the transposed centres and log-scales (row 0 is x, row 1
  is y, the 2048 gaussians along the lanes), the log-opacities as one row, and all the colours. It forms the [512, 2048] weights,
  sums them along the lanes (kept as a column), contracts them with the colours, divides and clamps. Entry (r, ch) of the stored
  block is therefore the specification's `shade` of pixel r's weights and channel ch's colours.
-/
import proofs.«125201_j1537598292676_1_alg».proof.Proof.Gen.KernelIdeal.Frame
import proofs.«125201_j1537598292676_1_alg».proof.Proof.SplatSpec
import proofs.«125201_j1537598292676_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Cert.Splat Cert.Keepdims Idealize.ShloMosaic Idealize.ShloMosaic.ValueIdx

/-! ## The rows computed once per gaussian -/

/-- The clamped x-scales, along the lanes. -/
theorem scaleX_read (v : Vec Ideal S1x2048 .f32) : k0_pay2 (F := Ideal) v = fun j => scaleOf (v j) := by
  unfold k0_pay2
  rw [shapeCast_self]
  rfl

/-- The clamped y-scales. -/
theorem scaleY_read (v : Vec Ideal S1x2048 .f32) : k0_pay3 (F := Ideal) v = fun j => scaleOf (v j) := by
  unfold k0_pay3
  rw [shapeCast_self]
  rfl

/-- The normalisations 1 / (2π · sx · sy). -/
theorem norm_read (v6 v8 : Vec Ideal S1x2048 .f32) :
    k0_pay4 (F := Ideal) v6 v8
      = fun j => Ideal.div (Ideal.ofBits .f32 0x3F800000#32) (Ideal.ofBits .f32 0x40C90FDB#32 * scaleOf (v6 j) * scaleOf (v8 j)) := by
  unfold k0_pay4
  rw [scaleX_read, scaleY_read]
  rfl

/-- The opacities. -/
theorem opacity_read (v : Vec Ideal S1x2048 .f32) : k0_pay5 (F := Ideal) v = fun j => Ideal.exp (v j) := by
  unfold k0_pay5
  rw [shapeCast_self]
  rfl

/-! ## The gaussian exponentials, pixel by gaussian -/

/-- Entry (r, n): exp of minus one half of the two squared scaled offsets of pixel `r` from gaussian `n`. -/
theorem gauss_read (v0 v1 : Vec Ideal S512x1 .f32) (v2 v4 v6 v8 : Vec Ideal S1x2048 .f32) (r : Fin 512) (n : Fin 2048) :
    k0_pay6 (F := Ideal) v0 v1 v2 v4 v6 v8 (ix2 r n)
      = Ideal.exp (Ideal.ofBits .f32 0xBF000000#32
          * (offSq (v0 (ix2 r 0)) (v2 (ix2 0 n)) (v6 (ix2 0 n)) + offSq (v1 (ix2 r 0)) (v4 (ix2 0 n)) (v8 (ix2 0 n)))) := by
  unfold k0_pay6
  rw [scaleX_read, scaleY_read]
  simp only [shapeCast_self]
  show Ideal.exp (Ideal.ofBits .f32 0xBF000000#32
      * (Ideal.div (broadcastTo S512x2048 v0 _ (ix2 r n) - broadcastTo S512x2048 v2 _ (ix2 r n)) (broadcastTo S512x2048 (fun j => scaleOf (v6 j)) _ (ix2 r n))
          * Ideal.div (broadcastTo S512x2048 v0 _ (ix2 r n) - broadcastTo S512x2048 v2 _ (ix2 r n)) (broadcastTo S512x2048 (fun j => scaleOf (v6 j)) _ (ix2 r n))
        + Ideal.div (broadcastTo S512x2048 v1 _ (ix2 r n) - broadcastTo S512x2048 v4 _ (ix2 r n)) (broadcastTo S512x2048 (fun j => scaleOf (v8 j)) _ (ix2 r n))
          * Ideal.div (broadcastTo S512x2048 v1 _ (ix2 r n) - broadcastTo S512x2048 v4 _ (ix2 r n)) (broadcastTo S512x2048 (fun j => scaleOf (v8 j)) _ (ix2 r n)))) = _
  simp only [broadcastTo_a1_ab_apply, broadcastTo_1b_ab_apply]
  rfl

/-! ## The contraction with the colours -/

theorem lhs_colour_0 (i : S512x3.Idx) (q : dot_S512x2048_S2048x3_S512x3_1_0_0_1_n_n.contr.Idx) :
    (dot_S512x2048_S2048x3_S512x3_1_0_0_1_n_n.lhsIdx i q 0).val = (i 0).val := by
  unfold DotDims.lhsIdx
  rw [dif_neg (show ¬(0 : Fin S512x2048.rank) ∈ dot_S512x2048_S2048x3_S512x3_1_0_0_1_n_n.lhsBatch by decide), dif_pos (show (0 : Fin S512x2048.rank) ∈ dot_S512x2048_S2048x3_S512x3_1_0_0_1_n_n.lhsNonContracting by decide)]
  rfl
theorem lhs_colour_1 (i : S512x3.Idx) (q : dot_S512x2048_S2048x3_S512x3_1_0_0_1_n_n.contr.Idx) :
    (dot_S512x2048_S2048x3_S512x3_1_0_0_1_n_n.lhsIdx i q 1).val = (q ⟨0, by decide⟩).val :=
  dot_S512x2048_S2048x3_S512x3_1_0_0_1_n_n.lhsIdx_val_of_single rfl i q
theorem rhs_colour_0 (i : S512x3.Idx) (q : dot_S512x2048_S2048x3_S512x3_1_0_0_1_n_n.contr.Idx) :
    (dot_S512x2048_S2048x3_S512x3_1_0_0_1_n_n.rhsIdx i q 0).val = (q ⟨0, by decide⟩).val :=
  dot_S512x2048_S2048x3_S512x3_1_0_0_1_n_n.rhsIdx_val_of_single rfl i q
theorem rhs_colour_1 (i : S512x3.Idx) (q : dot_S512x2048_S2048x3_S512x3_1_0_0_1_n_n.contr.Idx) :
    (dot_S512x2048_S2048x3_S512x3_1_0_0_1_n_n.rhsIdx i q 1).val = (i 1).val := by
  unfold DotDims.rhsIdx
  rw [dif_neg (show ¬(1 : Fin S2048x3.rank) ∈ dot_S512x2048_S2048x3_S512x3_1_0_0_1_n_n.rhsBatch by decide), dif_pos (show (1 : Fin S2048x3.rank) ∈ dot_S512x2048_S2048x3_S512x3_1_0_0_1_n_n.rhsNonContracting by decide)]
  rfl

/-- The weights times the colours into a zero accumulator: entry (r, ch) is the sum over the gaussians. -/
theorem colourSum_read (l : FVec Ideal S512x2048 .bf16) (c : FVec Ideal S2048x3 .bf16) (r : Fin 512) (ch : Fin 3) :
    matmul (F := Ideal) dot_S512x2048_S2048x3_S512x3_1_0_0_1_n_n none l c (constant S512x3 .f32 0x00000000#32) (ix2 r ch)
      = ∑ n : Fin 2048, l (ix2 r n) * c (ix2 n ch) := by
  simp only [matmul]
  rw [Ideal.matmul_constant_zero_apply, ← Equiv.sum_comp (contrEquiv1 dot_S512x2048_S2048x3_S512x3_1_0_0_1_n_n 2048 rfl rfl).symm]
  refine Finset.sum_congr rfl fun k _ => ?_
  have hk := contrEquiv1_symm_val dot_S512x2048_S2048x3_S512x3_1_0_0_1_n_n 2048 rfl rfl k
  have el : dot_S512x2048_S2048x3_S512x3_1_0_0_1_n_n.lhsIdx (ix2 r ch) ((contrEquiv1 dot_S512x2048_S2048x3_S512x3_1_0_0_1_n_n 2048 rfl rfl).symm k) = ix2 r k := funext fun a => Fin.ext (by
    match a with
    | ⟨0, _⟩ => exact lhs_colour_0 _ _
    | ⟨1, _⟩ => exact (lhs_colour_1 _ _).trans hk)
  have er : dot_S512x2048_S2048x3_S512x3_1_0_0_1_n_n.rhsIdx (ix2 r ch) ((contrEquiv1 dot_S512x2048_S2048x3_S512x3_1_0_0_1_n_n 2048 rfl rfl).symm k) = ix2 k ch := funext fun a => Fin.ext (by
    match a with
    | ⟨0, _⟩ => exact (rhs_colour_0 _ _).trans hk
    | ⟨1, _⟩ => exact rhs_colour_1 _ _)
  rw [el, er]

/-! ## The stored block -/

/-- Entry (r, ch) of the payload the body stores, from the normalisation row `nrm`, the opacity row `opa`, the exponentials `g`
    and the colours: `shade` of the weights `nrm · g · opa` of pixel `r` and channel `ch` of the colours. -/
theorem store_read (nrm opa : FVec Ideal S1x2048 .f32) (g : FVec Ideal S512x2048 .f32) (col : Vec Ideal S2048x3 .f32) (r : Fin 512) (ch : Fin 3) :
    k0_pay1 (F := Ideal) nrm opa g col (ix2 r ch)
      = shade (fun n => nrm (ix2 0 n) * g (ix2 r n) * opa (ix2 0 n)) (fun n => col (ix2 n ch)) := by
  have hw : ∀ n : Fin 2048, mulf (mulf (broadcastTo S512x2048 nrm broadcasts_S1x2048_S512x2048) g) (broadcastTo S512x2048 opa broadcasts_S1x2048_S512x2048) (ix2 r n)
      = nrm (ix2 0 n) * g (ix2 r n) * opa (ix2 0 n) := fun n => by
    show broadcastTo S512x2048 nrm _ (ix2 r n) * g (ix2 r n) * broadcastTo S512x2048 opa _ (ix2 r n) = _
    rw [broadcastTo_1b_ab_apply, broadcastTo_1b_ab_apply]
  unfold k0_pay1 shade
  dsimp only
  refine congrArg (min _) (congrArg (max _) ?_)
  refine congrArg₂ Ideal.div ?_ ?_
  · refine (colourSum_read _ _ r ch).trans (Finset.sum_congr rfl fun n _ => ?_)
    exact congrArg (· * col (ix2 n ch)) (hw n)
  · rw [broadcastTo_a1_ab_apply]
    refine congrArg (max · (Ideal.ofBits .f32 0x322BCC77#32)) ?_
    refine (shapeCast_a_a1_apply _ _ r 0).trans ?_
    exact (rowSum_apply _ _ _ _ r).trans (Finset.sum_congr rfl fun n _ => hw n)

/-! ## The loads, and the block the body leaves -/

theorem zero_offsets : (![0, 0] : Fin 2 → Nat) = fun _ => 0 := funext fun a => by fin_cases a <;> rfl

/-- Column x of the pixel block. -/
theorem ld_pixel_x (x : Vec Ideal S512x2 .f32) (r : Fin 512) : View.ld x r0_0 (ix2 r 0) = x (ix2 r 0) :=
  congrArg x (funext fun a => Fin.ext (by
    match a with
    | ⟨0, _⟩ => show 0 + 1 * r.val = r.val; omega
    | ⟨1, _⟩ => rfl))

/-- Column y of the pixel block. -/
theorem ld_pixel_y (x : Vec Ideal S512x2 .f32) (r : Fin 512) : View.ld x r0_1 (ix2 r 0) = x (ix2 r 1) :=
  congrArg x (funext fun a => Fin.ext (by
    match a with
    | ⟨0, _⟩ => show 0 + 1 * r.val = r.val; omega
    | ⟨1, _⟩ => rfl))

/-- Row x of a transposed per-gaussian table. -/
theorem ld_row_x (x : Vec Ideal S2x2048 .f32) (n : Fin 2048) : View.ld x r0_2 (ix2 0 n) = x (ix2 0 n) :=
  congrArg x (funext fun a => Fin.ext (by
    match a with
    | ⟨0, _⟩ => rfl
    | ⟨1, _⟩ => show 0 + 1 * n.val = n.val; omega))

/-- Row y of a transposed per-gaussian table. -/
theorem ld_row_y (x : Vec Ideal S2x2048 .f32) (n : Fin 2048) : View.ld x r0_3 (ix2 0 n) = x (ix2 1 n) :=
  congrArg x (funext fun a => Fin.ext (by
    match a with
    | ⟨0, _⟩ => rfl
    | ⟨1, _⟩ => show 0 + 1 * n.val = n.val; omega))

/-- Entry (r, ch) of the block the body leaves in the output window's buffer, from the input windows' blocks: the pixel block
    `x0`, the transposed centres `x1` and log-scales `x2`, the colours `x3` and the row of log-opacities `x4`. -/
theorem block_read (x0 : Vec Ideal S512x2 .f32) (x1 x2 : Vec Ideal S2x2048 .f32) (x3 : Vec Ideal S2048x3 .f32) (x4 : Vec Ideal S1x2048 .f32)
    (r : Fin 512) (ch : Fin 3) :
    out0_5 (F := Ideal) x0 x1 x2 x3 x4 (ix2 r ch)
      = shade (fun n => weightOf (x0 (ix2 r 0)) (x0 (ix2 r 1)) (x1 (ix2 0 n)) (x1 (ix2 1 n)) (x2 (ix2 0 n)) (x2 (ix2 1 n)) (x4 (ix2 0 n)))
          (fun n => x3 (ix2 n ch)) := by
  unfold out0_5
  rw [View.canon_unit_zero zero_offsets, store_read, norm_read, opacity_read]
  refine congrArg₂ shade (funext fun n => ?_) (funext fun n => ?_)
  · rw [gauss_read]
    dsimp only
    rw [ld_pixel_x x0 r, ld_pixel_y x0 r, ld_row_x x1 n, ld_row_y x1 n, ld_row_x x2 n, ld_row_y x2 n,
      View.ld_unit_zero (S := S1x2048) zero_offsets]
    rfl
  · rw [View.ld_unit_zero (S := S2048x3) zero_offsets]

end Cert.KernelIdeal.BodyValue

end
-- ==== Proof.KernelArray.lean ====
/-
  From the blocks to the array: after the kernel's run its result array is the specification's image of the arguments.

  The grid has 128 points; point t stages rows 512·t … 512·t + 511 of the pixel coordinates and writes back the same rows of the
  result, while the per-gaussian tables are staged whole at every point. Before the launch the host transposes the centres, the
  log-scales and the log-opacities, so the staged tables read (axis, gaussian) where the arguments read (gaussian, axis).
  Row by row the stored block is the image's block, and the 128 row blocks cover the result array.
-/
import proofs.«125201_j1537598292676_1_alg».proof.Proof.Gen.KernelIdeal.Value
import proofs.«125201_j1537598292676_1_alg».proof.Proof.BodyValue
import Idealize.ShloMosaic.Lib.Pipeline.Value
import Idealize.ShloMosaic.Lib.ValueLayout
import Idealize.ShloMosaic.Lib.StableHlo.Run

noncomputable section

namespace Cert.KernelIdeal.ArrayValue

open Cert.KernelIdeal Cert.KernelIdeal.Gen Cert.KernelIdeal.Value Cert.KernelIdeal.BodyValue Cert.Splat
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The image of the arguments as launched: what the result array is to hold. -/
abbrev result (c : Dev nD) : Buf (Elt Ideal) ((c : Thread nD τ).loc main_v3) :=
  image (m ((c : Thread nD τ).loc main_arg0)) (m ((c : Thread nD τ).loc main_arg1)) (m ((c : Thread nD τ).loc main_arg2))
    (m ((c : Thread nD τ).loc main_arg3)) (m ((c : Thread nD τ).loc main_arg4))

/-! ## The tables the host transposes before the launch -/

theorem centresT_eq (c : Dev nD) :
    (V m c main_v0 : S2x2048.Idx → EReal) = transpose S2x2048 [1, 0] (m ((c : Thread nD τ).loc main_arg1)) transposes_S2048x2_S2x2048_1_0 := by
  dsimp only [V, hostOps0]; after_results

theorem logScalesT_eq (c : Dev nD) :
    (V m c main_v1 : S2x2048.Idx → EReal) = transpose S2x2048 [1, 0] (m ((c : Thread nD τ).loc main_arg2)) transposes_S2048x2_S2x2048_1_0 := by
  dsimp only [V, hostOps0]; after_results

theorem logOpacitiesT_eq (c : Dev nD) :
    (V m c main_v2 : S1x2048.Idx → EReal) = transpose S1x2048 [1, 0] (m ((c : Thread nD τ).loc main_arg4)) transposes_S2048x1_S1x2048_1_0 := by
  dsimp only [V, hostOps0]; after_results

/-! ## One grid point -/

/-- The printed index maps over the grid: the pixel block and the result block are block `t` along the rows; every table is
    staged whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A stored block entry is the image's entry, once each staged block is known in terms of the arrays: the pixel block's row is
    the array's row `i 0`, the tables are the transposed arguments, the colours are the colours, and the channel is `i 1`. -/
theorem point_read (X0 : Vec Ideal S512x2 .f32) (X1 X2 : Vec Ideal S2x2048 .f32) (X3 : Vec Ideal S2048x3 .f32) (X4 : Vec Ideal S1x2048 .f32)
    (co : FVec Ideal S65536x2 .f32) (po ls : FVec Ideal S2048x2 .f32) (cl : FVec Ideal S2048x3 .f32) (lo : FVec Ideal S2048x1 .f32)
    (r : Fin 512) (ch : Fin 3) (i : S65536x3.Idx)
    (h0 : ∀ a : Fin 2, X0 (ix2 r a) = co (ix2 (i 0) a))
    (h1 : ∀ (a : Fin 2) (n : Fin 2048), X1 (ix2 a n) = po (ix2 n a))
    (h2 : ∀ (a : Fin 2) (n : Fin 2048), X2 (ix2 a n) = ls (ix2 n a))
    (h3 : ∀ (n : Fin 2048) (ch : Fin 3), X3 (ix2 n ch) = cl (ix2 n ch))
    (h4 : ∀ n : Fin 2048, X4 (ix2 0 n) = lo (ix2 n 0))
    (hch : ch = i 1) :
    out0_5 (F := Ideal) X0 X1 X2 X3 X4 (ix2 r ch) = image co po ls cl lo i := by
  rw [block_read]
  unfold image
  refine congrArg₂ shade (funext fun n => ?_) (funext fun n => ?_)
  · rw [h0 0, h0 1, h1 0 n, h1 1 n, h2 0 n, h2 1 n, h4 n]
  · rw [h3 n ch, hch]

/-- What point `t` writes back is block `t` of the image. -/
theorem flushed_eq (c : Dev nD) (t : Fin cfg0.N) :
    (dats m 0 c).flushed 5 t = ((cfg0.win 5).blk t).view.read (Elt Ideal) (result m c) := by
  rw [flushed5]
  obtain ⟨e00, e01, e10, e11, e20, e21, e30, e31, e40, e41, e50, e51⟩ := idx_facts t
  funext y
  obtain ⟨r, ch, rfl⟩ : ∃ (r : Fin 512) (ch : Fin 3), y = ix2 r ch := ⟨y 0, y 1, eq_ix2 y⟩
  show out0_5 (F := Ideal) (iblk m c 0 t) (iblk m c 1 t) (iblk m c 2 t) (iblk m c 3 t) (iblk m c 4 t) (ix2 r ch)
    = result m c (((cfg0.win 5).blk t).view.emb (ix2 r ch))
  refine point_read (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) r ch (((cfg0.win 5).blk t).view.emb (ix2 r ch)) ?_ ?_ ?_ ?_ ?_ ?_
  · -- the pixel block's row r is row 512·t + r of the coordinates
    intro a
    show V m c main_arg0 (((cfg0.win 0).blk t).view.emb (ix2 r a)) = _
    rw [V_main_arg0]
    refine congrArg _ (funext fun b => Fin.ext ?_)
    match b with
    | ⟨0, _⟩ => show win0_0.index t (0 : Fin 2) * 512 + 1 * r.val = win0_5.index t (0 : Fin 2) * 512 + 1 * r.val; omega
    | ⟨1, _⟩ => show win0_0.index t (1 : Fin 2) * 2 + 1 * a.val = a.val; omega
  · -- the staged centres are the transposed centres
    intro a n
    have he : ((cfg0.win 1).blk t).view.emb (ix2 a n) = (ix2 a n : S2x2048.Idx) := funext fun b => Fin.ext (by
      match b with
      | ⟨0, _⟩ => show win0_1.index t (0 : Fin 2) * 2 + 1 * a.val = a.val; omega
      | ⟨1, _⟩ => show win0_1.index t (1 : Fin 2) * 2048 + 1 * n.val = n.val; omega)
    show V m c main_v0 (((cfg0.win 1).blk t).view.emb (ix2 a n)) = _
    rw [he, centresT_eq, transpose_ix2_apply]
  · -- the staged log-scales are the transposed log-scales
    intro a n
    have he : ((cfg0.win 2).blk t).view.emb (ix2 a n) = (ix2 a n : S2x2048.Idx) := funext fun b => Fin.ext (by
      match b with
      | ⟨0, _⟩ => show win0_2.index t (0 : Fin 2) * 2 + 1 * a.val = a.val; omega
      | ⟨1, _⟩ => show win0_2.index t (1 : Fin 2) * 2048 + 1 * n.val = n.val; omega)
    show V m c main_v1 (((cfg0.win 2).blk t).view.emb (ix2 a n)) = _
    rw [he, logScalesT_eq, transpose_ix2_apply]
  · -- the colours are staged whole
    intro n k
    have he : ((cfg0.win 3).blk t).view.emb (ix2 n k) = (ix2 n k : S2048x3.Idx) := funext fun b => Fin.ext (by
      match b with
      | ⟨0, _⟩ => show win0_3.index t (0 : Fin 2) * 2048 + 1 * n.val = n.val; omega
      | ⟨1, _⟩ => show win0_3.index t (1 : Fin 2) * 3 + 1 * k.val = k.val; omega)
    show V m c main_arg3 (((cfg0.win 3).blk t).view.emb (ix2 n k)) = _
    rw [he, V_main_arg3]
  · -- the staged log-opacities are the transposed log-opacities
    intro n
    have he : ((cfg0.win 4).blk t).view.emb (ix2 0 n) = (ix2 0 n : S1x2048.Idx) := funext fun b => Fin.ext (by
      match b with
      | ⟨0, _⟩ => show win0_4.index t (0 : Fin 2) * 1 + 1 * 0 = 0; omega
      | ⟨1, _⟩ => show win0_4.index t (1 : Fin 2) * 2048 + 1 * n.val = n.val; omega)
    show V m c main_v2 (((cfg0.win 4).blk t).view.emb (ix2 0 n)) = _
    rw [he, logOpacitiesT_eq, transpose_ix2_apply]
  · -- the channel is the block's column
    refine Fin.ext ?_
    show ch.val = win0_5.index t (1 : Fin 2) * 3 + 1 * ch.val
    omega

/-! ## The whole array -/

/-- An index of the result array lies in point `t`'s block when, on each axis, it lies in the block's range. -/
theorem mem_block (t : Fin cfg0.N) (i : S65536x3.Idx) :
    i ∈ ((cfg0.win 5).blk t).view.set
      ↔ ∀ a : Fin 2, win0_5.index t a * S512x3.size a ≤ (i a).val ∧ (i a).val < win0_5.index t a * S512x3.size a + S512x3.size a := by
  show i ∈ ((View.whole main_v3).slice (win0_5.rect t)).set ↔ _
  rw [View.set_slice_whole, Rect.mem_set_unit]
  exact Iff.rfl

/-- Every index of the result array is written back by the point that holds its row: row ρ belongs to point ρ / 512. -/
theorem covered (i : S65536x3.Idx) :
    ∃ t : Fin cfg0.N, (cfg0.win 5).flush t = true ∧ i ∈ ((cfg0.win 5).blk t).view.set := by
  have hi0 : (i 0).val < 65536 := (i 0).isLt
  have hi1 : (i 1).val < 3 := (i 1).isLt
  have hN : cfg0.N = 128 := N_0
  let t : Fin cfg0.N := ⟨(i 0).val / 512, by rw [hN]; omega⟩
  have ht : t.val = (i 0).val / 512 := rfl
  obtain ⟨-, -, -, -, -, -, -, -, -, -, e50, e51⟩ := idx_facts t
  refine ⟨t, flush0_5 t, ?_⟩
  rw [mem_block]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 3 ≤ (i 1).val ∧ (i 1).val < win0_5.index t (1 : Fin 2) * 3 + 3
    omega

/-- After the run the result array is the image of the arguments. -/
theorem final_result (c : Dev nD) : (dats m 0 c).arrAt 5 cfg0.N = result m c :=
  (dats m 0 c).arrAt_eq_of_cover 5 (result m c) (fun t _ => flushed_eq m c t) covered

/-- The kernel's run, read: the result array at the image, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_result m c), (h c).2⟩) (run_blocks m ρ)

end Cert.KernelIdeal.ArrayValue

end
-- ==== Proof.lean ====
/-
  The kernel renders 2048 gaussians onto 65536 pixels: for each pixel, the gaussians' weights
      1 / (2π · sx · sy) · exp(-1/2 · (((cx - px) / sx)² + ((cy - py) / sy)²)) · exp(log-opacity)
  (scales exp(log-scale) clamped below by 0.1), the weighted colour sum over the total weight (clamped below by 1e-8), clamped to
  [0, 1]. The kernel works on blocks of 512 pixels with the per-gaussian tables transposed so that the gaussians run along the
  lanes, contracts the weights with the colours in one matrix product and sums them along the lanes; the reference broadcasts
  to a [65536, 2048, 2] array, sums its last axis, and takes an einsum and a row sum. On the extended reals both are the same
  function of the arguments, entry by entry, with no law beyond 0 + x = x for the sums' zero starts: the two programs apply the
  same operations to the same float words in the same order (`Cert.Splat.image`, Proof/SplatSpec.lean).

  Proof/RefIsSpec.lean reads the reference's stages at an index; Proof/BodyValue.lean reads the kernel body's stored block at an
  entry; Proof/KernelArray.lean carries the blocks to the whole result array (the host's transposes, the index maps over the grid,
  the cover) and states the kernel's run. The frames of the two kernel programs are the generated ones, the reference's frame is
  its generated run with the result dropped, and the idealization rewrote nothing.
-/
import proofs.«125201_j1537598292676_1_alg».proof.Defs
import proofs.«125201_j1537598292676_1_alg».proof.Proof.Gen.Kernel
import proofs.«125201_j1537598292676_1_alg».proof.Proof.Gen.Kernel.Skeleton
import proofs.«125201_j1537598292676_1_alg».proof.Proof.Gen.Kernel.Launch
import proofs.«125201_j1537598292676_1_alg».proof.Proof.Gen.Kernel.Points
import proofs.«125201_j1537598292676_1_alg».proof.Proof.Gen.Kernel.Frame
import proofs.«125201_j1537598292676_1_alg».proof.Proof.Gen.KernelIdeal
import proofs.«125201_j1537598292676_1_alg».proof.Proof.Gen.KernelIdeal.Skeleton
import proofs.«125201_j1537598292676_1_alg».proof.Proof.Gen.KernelIdeal.Launch
import proofs.«125201_j1537598292676_1_alg».proof.Proof.Gen.KernelIdeal.Points
import proofs.«125201_j1537598292676_1_alg».proof.Proof.Gen.KernelIdeal.Frame
import proofs.«125201_j1537598292676_1_alg».proof.Proof.Gen.ReferenceIdeal
import proofs.«125201_j1537598292676_1_alg».proof.Proof.Gen.Pre_finite_inputs
import proofs.«125201_j1537598292676_1_alg».proof.Proof.Gen.KernelIdeal.Value
import proofs.«125201_j1537598292676_1_alg».proof.Proof.Gen.ReferenceIdeal.Run
import proofs.«125201_j1537598292676_1_alg».proof.Proof.Gen.ReferenceIdeal.Read
import proofs.«125201_j1537598292676_1_alg».proof.Proof.RefIsSpec
import proofs.«125201_j1537598292676_1_alg».proof.Proof.KernelArray
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the image of those arguments in their result arrays. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.result_read,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
